-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x20128 : Shape := ⟨2, ![1024, 20128]⟩
abbrev S20000x129 : Shape := ⟨2, ![20000, 129]⟩
abbrev S20000 : Shape := ⟨1, ![20000]⟩
abbrev S_ : Shape := ⟨0, ![]⟩

class Facts : Prop where
  bcast_S_S1024x20128 : S_.BroadcastsInDim S1024x20128 (![] : Fin 0 → Fin S1024x20128.rank)
  reducesTo_S1024x20128_S_d0_1 : S1024x20128.ReducesTo [0, 1] S_
  h_S_ : 0 < S_.numel
  bcast_S_S20000x129 : S_.BroadcastsInDim S20000x129 (![] : Fin 0 → Fin S20000x129.rank)
  reducesTo_S20000x129_S_d0_1 : S20000x129.ReducesTo [0, 1] S_
  bcast_S_S20000 : S_.BroadcastsInDim S20000 (![] : Fin 0 → Fin S20000.rank)
  reducesTo_S20000_S_d0 : S20000.ReducesTo [0] S_

variable [Facts]

def fn {F : FTy → Type} [FloatOps F] (main_arg0 : FVec F S1024x20128 .f32) (main_arg1 : FVec F S20000x129 .f32) (main_arg2 : FVec F S20000 .f32) : IVec S_ 1 :=
  let main_v0 : FVec F S1024x20128 .f32 := Host.absf main_arg0
  let main_cst : FVec F S_ .f32 := constant S_ .f32 0x7F800000#32
  let main_v1 : FVec F S1024x20128 .f32 := broadcastInDim S1024x20128 ![] bcast_S_S1024x20128 main_cst
  let main_v2 : IVec S1024x20128 1 := cmpf .olt main_v0 main_v1
  let main_c : IVec S_ 1 := constantI S_ 1 1#1
  let main_v3 : IVec S_ 1 := (fun x v => Host.reduce IntOp.andi x v reducesTo_S1024x20128_S_d0_1 h_S_) main_v2 main_c
  let main_v4 : FVec F S20000x129 .f32 := Host.absf main_arg1
  let main_cst_0 : FVec F S_ .f32 := constant S_ .f32 0x7F800000#32
  let main_v5 : FVec F S20000x129 .f32 := broadcastInDim S20000x129 ![] bcast_S_S20000x129 main_cst_0
  let main_v6 : IVec S20000x129 1 := cmpf .olt main_v4 main_v5
  let main_c_1 : IVec S_ 1 := constantI S_ 1 1#1
  let main_v7 : IVec S_ 1 := (fun x v => Host.reduce IntOp.andi x v reducesTo_S20000x129_S_d0_1 h_S_) main_v6 main_c_1
  let main_v8 : IVec S_ 1 := andi main_v3 main_v7
  let main_v9 : FVec F S20000 .f32 := Host.absf main_arg2
  let main_cst_2 : FVec F S_ .f32 := constant S_ .f32 0x7F800000#32
  let main_v10 : FVec F S20000 .f32 := broadcastInDim S20000 ![] bcast_S_S20000 main_cst_2
  let main_v11 : IVec S20000 1 := cmpf .olt main_v9 main_v10
  let main_c_3 : IVec S_ 1 := constantI S_ 1 1#1
  let main_v12 : IVec S_ 1 := (fun x v => Host.reduce IntOp.andi x v reducesTo_S20000_S_d0 h_S_) main_v11 main_c_3
  let main_v13 : IVec S_ 1 := andi main_v8 main_v12
  main_v13
-- ==== Kernel.lean ====
abbrev S1024x20128 : Shape := ⟨2, ![1024, 20128]⟩
abbrev S20000x129 : Shape := ⟨2, ![20000, 129]⟩
abbrev S20000 : Shape := ⟨1, ![20000]⟩
abbrev S20000x1 : Shape := ⟨2, ![20000, 1]⟩
abbrev S20000x128 : Shape := ⟨2, ![20000, 128]⟩
abbrev S128x20000 : Shape := ⟨2, ![128, 20000]⟩
abbrev S1x20000 : Shape := ⟨2, ![1, 20000]⟩
abbrev S1024x20000 : Shape := ⟨2, ![1024, 20000]⟩
abbrev S64x20128 : Shape := ⟨2, ![64, 20128]⟩
abbrev S64x20000 : Shape := ⟨2, ![64, 20000]⟩
abbrev S64x128 : Shape := ⟨2, ![64, 128]⟩

abbrev nBuf : Space → Nat
  | .hbm => 11
  | .vmem => 7
  | .smem => 0
  | _ => 0

abbrev bufTy : (tb : Table) → Fin (tcTables nBuf tb) → BufTy
  | .hbm, ⟨0, _⟩ => ⟨S1024x20128, .f32⟩
  | .hbm, ⟨1, _⟩ => ⟨S20000x129, .f32⟩
  | .hbm, ⟨2, _⟩ => ⟨S20000, .f32⟩
  | .hbm, ⟨3, _⟩ => ⟨S20000x1, .f32⟩
  | .hbm, ⟨4, _⟩ => ⟨S20000, .f32⟩
  | .hbm, ⟨5, _⟩ => ⟨S20000x128, .f32⟩
  | .hbm, ⟨6, _⟩ => ⟨S128x20000, .f32⟩
  | .hbm, ⟨7, _⟩ => ⟨S128x20000, .bf16⟩
  | .hbm, ⟨8, _⟩ => ⟨S1x20000, .f32⟩
  | .hbm, ⟨9, _⟩ => ⟨S1x20000, .f32⟩
  | .hbm, ⟨10, _⟩ => ⟨S1024x20000, .f32⟩
  | .local _ .vmem, ⟨0, _⟩ => ⟨S64x20128, .f32⟩
  | .local _ .vmem, ⟨1, _⟩ => ⟨S64x20128, .f32⟩
  | .local _ .vmem, ⟨2, _⟩ => ⟨S128x20000, .bf16⟩
  | .local _ .vmem, ⟨3, _⟩ => ⟨S1x20000, .f32⟩
  | .local _ .vmem, ⟨4, _⟩ => ⟨S1x20000, .f32⟩
  | .local _ .vmem, ⟨5, _⟩ => ⟨S64x20000, .f32⟩
  | .local _ .vmem, ⟨6, _⟩ => ⟨S64x20000, .f32⟩
  | _, _ => ⟨S1024x20128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x20000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x20000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S20000x129_S20000x1_0_0 : S20000x129.Slices ![0, 0] S20000x1
  shapeCasts_S20000x1_S20000 : S20000x1.ShapeCasts S20000
  slices_S20000x129_S20000x128_0_1 : S20000x129.Slices ![0, 1] S20000x128
  transposes_S20000x128_S128x20000_1_0 : S20000x128.Transposes [1, 0] S128x20000
  bitsLt_bf16_f32 : FTy.bits .bf16 < FTy.bits .f32
  shapeCasts_S20000_S1x20000 : S20000.ShapeCasts S1x20000
  inb_S64x20128_S64x20128_0_0 : ∀ a, (![0, 0] : Fin 2 → Nat) a + S64x20128.size a ≤ S64x20128.size a
  h_S64x20128 : 0 < S64x20128.numel
  slices_S64x20128_o0_0_S64x20000 : S64x20128.Slices ![0, 0] S64x20000
  slices_S64x20128_o0_20000_S64x128 : S64x20128.Slices ![0, 20000] S64x128
  inb_S128x20000_S128x20000_0_0 : ∀ a, (![0, 0] : Fin 2 → Nat) a + S128x20000.size a ≤ S128x20000.size a
  h_S128x20000 : 0 < S128x20000.numel
  shapeCasts_S128x20000_S128x20000 : S128x20000.ShapeCasts S128x20000
  inb_S1x20000_S1x20000_0_0 : ∀ a, (![0, 0] : Fin 2 → Nat) a + S1x20000.size a ≤ S1x20000.size a
  h_S1x20000 : 0 < S1x20000.numel
  shapeCasts_S1x20000_S1x20000 : S1x20000.ShapeCasts S1x20000
  broadcasts_S1x20000_S64x20000 : S1x20000.Broadcasts S64x20000
  inb_S64x20000_S64x20000_0_0 : ∀ a, (![0, 0] : Fin 2 → Nat) a + S64x20000.size a ≤ S64x20000.size a
  h_S64x20000 : 0 < S64x20000.numel
  dot_S64x128_S128x20000_S64x20000_1_0_0_1_n_n_wf : DotDims.WF S64x128 S128x20000 S64x20000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20128.size a ≤ S1024x20128.size a
  hwx0_0 : ∀ i : grid0.Coords, EltTy.bits .f32 = 32 ∨ (Rect.block (s := S1024x20128) S64x20128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x20000.size a ≤ S128x20000.size a
  hwx0_1 : ∀ i : grid0.Coords, EltTy.bits .bf16 = 32 ∨ (Rect.block (s := S128x20000) S128x20000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20000.size a ≤ S1x20000.size a
  hwx0_2 : ∀ i : grid0.Coords, EltTy.bits .f32 = 32 ∨ (Rect.block (s := S1x20000) S1x20000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20000.size a ≤ S1x20000.size a
  hwx0_3 : ∀ i : grid0.Coords, EltTy.bits .f32 = 32 ∨ (Rect.block (s := S1x20000) S1x20000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x20000.size a ≤ S1024x20000.size a
  hwx0_4 : ∀ i : grid0.Coords, EltTy.bits .f32 = 32 ∨ (Rect.block (s := S1024x20000) S64x20000.size (cc0_transform_4 i) (hinb0_4 i)).WholeWords (EltTy.packing .f32)

variable [Facts₀]

def dot_S64x128_S128x20000_S64x20000_1_0_0_1_n_n : DotDims S64x128 S128x20000 S64x20000 where
  lhsContracting := [1]
  rhsContracting := [0]
  lhsNonContracting := [0]
  rhsNonContracting := [1]
  lhsBatch := []
  rhsBatch := []
  wf := dot_S64x128_S128x20000_S64x20000_1_0_0_1_n_n_wf

abbrev win0_0 : Pipeline.Window sig grid0 :=
  Pipeline.Window.ofSpec (Memref.whole main_arg0) S64x20128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x20000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x20000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x20000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S64x20000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x20128 : Shape := ⟨2, ![1024, 20128]⟩
abbrev S20000x129 : Shape := ⟨2, ![20000, 129]⟩
abbrev S20000 : Shape := ⟨1, ![20000]⟩
abbrev S1024x20000 : Shape := ⟨2, ![1024, 20000]⟩
abbrev S1024x128 : Shape := ⟨2, ![1024, 128]⟩
abbrev S20000x1 : Shape := ⟨2, ![20000, 1]⟩
abbrev S20000x128 : Shape := ⟨2, ![20000, 128]⟩
abbrev S1x20000 : Shape := ⟨2, ![1, 20000]⟩

abbrev nBuf : Space → Nat
  | .hbm => 16
  | .vmem => 0
  | .smem => 0
  | _ => 0

abbrev bufTy : (tb : Table) → Fin (tcTables nBuf tb) → BufTy
  | .hbm, ⟨0, _⟩ => ⟨S1024x20128, .f32⟩
  | .hbm, ⟨1, _⟩ => ⟨S20000x129, .f32⟩
  | .hbm, ⟨2, _⟩ => ⟨S20000, .f32⟩
  | .hbm, ⟨3, _⟩ => ⟨S1024x20000, .f32⟩
  | .hbm, ⟨4, _⟩ => ⟨S1024x128, .f32⟩
  | .hbm, ⟨5, _⟩ => ⟨S20000x1, .f32⟩
  | .hbm, ⟨6, _⟩ => ⟨S20000, .f32⟩
  | .hbm, ⟨7, _⟩ => ⟨S20000x128, .f32⟩
  | .hbm, ⟨8, _⟩ => ⟨S1x20000, .f32⟩
  | .hbm, ⟨9, _⟩ => ⟨S1024x20000, .f32⟩
  | .hbm, ⟨10, _⟩ => ⟨S1024x20000, .f32⟩
  | .hbm, ⟨11, _⟩ => ⟨S1024x20000, .f32⟩
  | .hbm, ⟨12, _⟩ => ⟨S1024x20000, .f32⟩
  | .hbm, ⟨13, _⟩ => ⟨S1x20000, .f32⟩
  | .hbm, ⟨14, _⟩ => ⟨S1024x20000, .f32⟩
  | .hbm, ⟨15, _⟩ => ⟨S1024x20000, .f32⟩
  | _, _ => ⟨S1024x20128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  slices_S1024x20128_S1024x20000_0_0 : S1024x20128.Slices ![0, 0] S1024x20000
  slices_S1024x20128_S1024x128_0_20000 : S1024x20128.Slices ![0, 20000] S1024x128
  slices_S20000x129_S20000x1_0_0 : S20000x129.Slices ![0, 0] S20000x1
  shapeCasts_S20000x1_S20000 : S20000x1.ShapeCasts S20000
  slices_S20000x129_S20000x128_0_1 : S20000x129.Slices ![0, 1] S20000x128
  bcast_S20000_S1x20000_1 : S20000.BroadcastsInDim S1x20000 (![1] : Fin 1 → Fin S1x20000.rank)
  bcast_S1x20000_S1024x20000_0_1 : S1x20000.BroadcastsInDim S1024x20000 (![0, 1] : Fin 2 → Fin S1024x20000.rank)
  dot_S1024x128_S20000x128_S1024x20000_1_1_0_0_n_n_wf : DotDims.WF S1024x128 S20000x128 S1024x20000 [1] [1] [0] [0] [] []

variable [Facts₀]

def dot_S1024x128_S20000x128_S1024x20000_1_1_0_0_n_n : DotDims S1024x128 S20000x128 S1024x20000 where
  lhsContracting := [1]
  rhsContracting := [1]
  lhsNonContracting := [0]
  rhsNonContracting := [0]
  lhsBatch := []
  rhsBatch := []
  wf := dot_S1024x128_S20000x128_S1024x20000_1_1_0_0_n_n_wf

class Facts : Prop extends Facts₀ where

variable [Facts]
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.LibMatLayout.lean ====
/-
  Two layout operations on matrices read at an entry given by its coordinates, for any extents.
  * A unit-stride rectangular piece of a matrix `[n, m]`, `a` rows by `b` columns starting at `(o₀, o₁)`: its entry
    `(p, q)` is the matrix at `(o₀ + p, o₁ + q)` (`slice2_apply`; the target index is a parameter with its two
    coordinate equations, so that a caller may spell `0 + k` as `k`).
  * A column `[n, 1]` repeated along the columns to `[n, b]`: its entry `(p, q)` is the column at `(p, 0)`
    (`colBcast_apply`).
-/
import Idealize.ShloMosaic.Lib.ValueLayout

namespace Cert.MatLayout

open Idealize.ShloMosaic Idealize.ShloMosaic.ValueIdx

variable {α : Type}

/-- Entry `(p, q)` of the `a × b` piece of `x` at offsets `(o₀, o₁)` is `x` at `(i, j)` with `i = o₀ + p`, `j = o₁ + q`. -/
theorem slice2_apply {n m a b : ℕ} (off : Fin 2 → ℕ) (x : (⟨2, ![n, m]⟩ : Shape).Idx → α)
    (h : (⟨2, ![n, m]⟩ : Shape).Slices off ⟨2, ![a, b]⟩) (p : Fin a) (q : Fin b) (i : Fin n) (j : Fin m)
    (hi : i.val = off 0 + p.val) (hj : j.val = off 1 + q.val) :
    extractStridedSlice ⟨2, ![a, b]⟩ off x h (ix2 p q) = x (ix2 i j) :=
  extractStridedSlice_apply off x h (ix2 p q) (ix2 i j) fun ax => by
    match ax with
    | ⟨0, _⟩ => exact hi
    | ⟨1, _⟩ => exact hj

/-- Entry `(p, q)` of a column repeated along the columns is the column's entry `(p, 0)`. -/
theorem colBcast_apply {n b : ℕ} (x : (⟨2, ![n, 1]⟩ : Shape).Idx → α)
    (h : (⟨2, ![n, 1]⟩ : Shape).Broadcasts ⟨2, ![n, b]⟩) (p : Fin n) (q : Fin b) :
    broadcastTo ⟨2, ![n, b]⟩ x h (ix2 p q) = x (ix2 p (0 : Fin 1)) := by
  refine broadcastTo_apply x h (ix2 p q) (ix2 p (0 : Fin 1)) fun ax => ?_
  match ax with
  | ⟨0, _⟩ =>
    show p.val = if n = 1 then 0 else p.val
    split
    · have := p.isLt; omega
    · rfl
  | ⟨1, _⟩ => rfl

end Cert.MatLayout
-- ==== Proof.Spec.lean ====
/-
  The function both programs compute, entry by entry, over the extended reals:

      y[r, j] = x[r, j] · W[j, 0] + Σ_{k < 128} x[r, 20000 + k] · W[j, 1 + k] + b[j]

  for x : [1024, 20128], W : [20000, 129], b : [20000]. Column j of x (j < 20000) meets its own weight W[j, 0]; the last
  128 columns of x are shared by every j and meet the remaining 128 entries of row j of W.

  Beside it, the shape of the computation on a block of rows, for ANY number n of rows: an [n, 20128] array whose first
  20000 columns are multiplied entrywise by one row d : [1, 20000] repeated over the rows, whose last 128 columns are
  multiplied as a matrix with a [128, 20000] matrix (into the zero accumulator), the two added, and a second row
  c : [1, 20000] repeated over the rows added last. A change of float format is the identity on extended reals, so the
  bf16 narrowing of the left factor is invisible here. Read at (p, q) it is

      xb[p, q] · d[0, q] + Σ_k xb[p, 20000 + k] · wT[k, q] + c[0, q].
-/
import Idealize.ShloMosaic.Lib.ValueIdx
import Idealize.ShloMosaic.Lib.ValueLayout
import Idealize.ShloMosaic.PureOps.Ideal
import proofs.«128370_j5480378270212_1_alg».proof.Proof.LibPlainDot
import proofs.«128370_j5480378270212_1_alg».proof.Proof.LibMatLayout

noncomputable section

namespace Cert.PerGene

open Idealize.ShloMosaic Idealize.ShloMosaic.ValueIdx

/-- Column `j` of the 20000 own-input columns, as a column of the [·, 20128] array. -/
abbrev ownCol (j : Fin 20000) : Fin 20128 := ⟨j.val, by have := j.isLt; omega⟩
/-- Shared column `k` of the last 128, as a column of the [·, 20128] array. -/
abbrev sharedCol (k : Fin 128) : Fin 20128 := ⟨20000 + k.val, by have := k.isLt; omega⟩
/-- The weight that meets shared column `k`: entry `1 + k` of a row of W. -/
abbrev sharedWeight (k : Fin 128) : Fin 129 := ⟨1 + k.val, by have := k.isLt; omega⟩

/-- One entry of the result. -/
def entry (x : (⟨2, ![1024, 20128]⟩ : Shape).Idx → EReal) (W : (⟨2, ![20000, 129]⟩ : Shape).Idx → EReal)
    (b : (⟨1, ![20000]⟩ : Shape).Idx → EReal) (r : Fin 1024) (j : Fin 20000) : EReal :=
  x (ix2 r (ownCol j)) * W (ix2 j (0 : Fin 129)) + ∑ k : Fin 128, x (ix2 r (sharedCol k)) * W (ix2 j (sharedWeight k))
    + b (ix1 j)

/-- The whole result array. -/
def result (x : (⟨2, ![1024, 20128]⟩ : Shape).Idx → EReal) (W : (⟨2, ![20000, 129]⟩ : Shape).Idx → EReal)
    (b : (⟨1, ![20000]⟩ : Shape).Idx → EReal) : (⟨2, ![1024, 20000]⟩ : Shape).Idx → EReal :=
  fun i => entry x W b (i 0) (i 1)

/-- The computation on a block of `n` rows, read at `(p, q)`. -/
theorem rows_apply {n : ℕ} (xb : FVec Ideal ⟨2, ![n, 20128]⟩ .f32) (wT : FVec Ideal ⟨2, ![128, 20000]⟩ .bf16)
    (d c : FVec Ideal ⟨2, ![1, 20000]⟩ .f32)
    (hown : (⟨2, ![n, 20128]⟩ : Shape).Slices ![0, 0] ⟨2, ![n, 20000]⟩)
    (hshared : (⟨2, ![n, 20128]⟩ : Shape).Slices ![0, 20000] ⟨2, ![n, 128]⟩)
    (hlt : FTy.bits .bf16 < FTy.bits .f32)
    (hw : (⟨2, ![128, 20000]⟩ : Shape).ShapeCasts ⟨2, ![128, 20000]⟩)
    (hrow : (⟨2, ![1, 20000]⟩ : Shape).ShapeCasts ⟨2, ![1, 20000]⟩)
    (hb : (⟨2, ![1, 20000]⟩ : Shape).Broadcasts ⟨2, ![n, 20000]⟩)
    (dd : DotDims ⟨2, ![n, 128]⟩ ⟨2, ![128, 20000]⟩ ⟨2, ![n, 20000]⟩) (hdd : dd = DotDims.plain n 128 20000)
    (p : Fin n) (q : Fin 20000) :
    addf (addf (mulf (extractStridedSlice ⟨2, ![n, 20000]⟩ ![0, 0] xb hown)
          (broadcastTo ⟨2, ![n, 20000]⟩ (shapeCast ⟨2, ![1, 20000]⟩ d hrow) hb))
        (matmul dd none (truncf .bf16 (extractStridedSlice ⟨2, ![n, 128]⟩ ![0, 20000] xb hshared) hlt)
          (shapeCast ⟨2, ![128, 20000]⟩ wT hw) (constant ⟨2, ![n, 20000]⟩ .f32 0x00000000#32)))
      (broadcastTo ⟨2, ![n, 20000]⟩ (shapeCast ⟨2, ![1, 20000]⟩ c hrow) hb) (ix2 p q)
      = xb (ix2 p (ownCol q)) * d (ix2 (0 : Fin 1) q) + ∑ k : Fin 128, xb (ix2 p (sharedCol k)) * wT (ix2 k q)
        + c (ix2 (0 : Fin 1) q) := by
  rw [addf_apply, addf_apply, mulf_apply, shapeCast_self, shapeCast_self, shapeCast_self,
    broadcastTo_1b_ab_apply, broadcastTo_1b_ab_apply,
    Cert.MatLayout.slice2_apply ![0, 0] xb hown p q p (ownCol q) (by simp) (by simp),
    Cert.PlainDot.matmul_zero_apply dd hdd]
  refine congrArg (· + c (ix2 (0 : Fin 1) q)) (congrArg (xb (ix2 p (ownCol q)) * d (ix2 (0 : Fin 1) q) + ·) ?_)
  refine Finset.sum_congr rfl fun k _ => ?_
  rw [truncf_apply, Cert.MatLayout.slice2_apply ![0, 20000] xb hshared p k p (sharedCol k) (by simp) (by simp)]

end Cert.PerGene

end
-- ==== Proof.HostPrefix.lean ====
/-
  What the region finds in the three arrays the host prepares from W and b before the launch, entry by entry:
  * the [128, 20000] matrix is the last 128 columns of W transposed (and narrowed to bf16, which changes no extended
    real): its entry (k, q) is W[q, 1 + k];
  * the first [1, 20000] row is column 0 of W laid along a row: its entry (0, q) is W[q, 0];
  * the second [1, 20000] row is b laid along a row: its entry (0, q) is b[q].
-/
import proofs.«128370_j5480378270212_1_alg».proof.Proof.Gen.KernelIdeal.Frame
import proofs.«128370_j5480378270212_1_alg».proof.Proof.Spec
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.PerGene

variable (m : (ℓ : Loc nD τ sig) → Buf (Elt Ideal) ℓ)

/-- The transposed shared weights, as the operations' term of W. -/
theorem V_shared (c : Dev nD) : @Eq (FVec Ideal S128x20000 .bf16) (V m c main_v4)
    (truncf .bf16 (transpose S128x20000 [1, 0] (extractStridedSlice S20000x128 ![0, 1] (m ((c : Thread nD τ).loc main_arg1)) slices_S20000x129_S20000x128_0_1) transposes_S20000x128_S128x20000_1_0) bitsLt_bf16_f32) := by
  dsimp only [V, hostOps0]; after_results <;> rfl

/-- The own weights as a row, as the operations' term of W. -/
theorem V_own (c : Dev nD) : @Eq (FVec Ideal S1x20000 .f32) (V m c main_v5)
    (shapeCast S1x20000 (shapeCast S20000 (extractStridedSlice S20000x1 ![0, 0] (m ((c : Thread nD τ).loc main_arg1)) slices_S20000x129_S20000x1_0_0) shapeCasts_S20000x1_S20000) shapeCasts_S20000_S1x20000) := by
  dsimp only [V, hostOps0]; after_results <;> rfl

/-- The bias as a row, as the operations' term of b. -/
theorem V_bias (c : Dev nD) : @Eq (FVec Ideal S1x20000 .f32) (V m c main_v6)
    (shapeCast S1x20000 (m ((c : Thread nD τ).loc main_arg2)) shapeCasts_S20000_S1x20000) := by
  dsimp only [V, hostOps0]; after_results <;> rfl

/-- Entry (k, q) of the transposed shared weights is W[q, 1 + k]. -/
theorem V_shared_apply (c : Dev nD) (k : Fin 128) (q : Fin 20000) :
    @Eq EReal ((V m c main_v4 : FVec Ideal S128x20000 .bf16) (ix2 k q)) ((m ((c : Thread nD τ).loc main_arg1) : FVec Ideal S20000x129 .f32) (ix2 q (sharedWeight k))) := by
  rw [V_shared, truncf_apply, transpose_ix2_apply,
    Cert.MatLayout.slice2_apply ![0, 1] _ slices_S20000x129_S20000x128_0_1 q k q (sharedWeight k) (by simp) (by simp)]

/-- Entry (0, q) of the own-weight row is W[q, 0]. -/
theorem V_own_apply (c : Dev nD) (q : Fin 20000) :
    @Eq EReal ((V m c main_v5 : FVec Ideal S1x20000 .f32) (ix2 (0 : Fin 1) q)) ((m ((c : Thread nD τ).loc main_arg1) : FVec Ideal S20000x129 .f32) (ix2 q (0 : Fin 129))) := by
  rw [V_own, shapeCast_a_1a_apply,
    shapeCast_apply _ shapeCasts_S20000x1_S20000 (ix1 q) (ix2 q (0 : Fin 1))
      (by rw [Shape.rowMajor_val_two, Shape.rowMajor_val_one]; show q.val * 1 + 0 = q.val; omega),
    Cert.MatLayout.slice2_apply ![0, 0] _ slices_S20000x129_S20000x1_0_0 q (0 : Fin 1) q (0 : Fin 129) (by simp) (by simp)]

/-- Entry (0, q) of the bias row is b[q]. -/
theorem V_bias_apply (c : Dev nD) (q : Fin 20000) :
    @Eq EReal ((V m c main_v6 : FVec Ideal S1x20000 .f32) (ix2 (0 : Fin 1) q)) ((m ((c : Thread nD τ).loc main_arg2) : FVec Ideal S20000 .f32) (ix1 q)) := by
  rw [V_bias, shapeCast_a_1a_apply]

end Cert.KernelIdeal.Prefix

end
-- ==== Proof.KernelValue.lean ====
/-
  The kernel's result array, read off its run: the grid has 16 points, point t computes rows 64·t … 64·t + 63 of the
  result from rows 64·t … of x (all 20128 columns), the whole [128, 20000] matrix of transposed shared weights, and the
  two [1, 20000] rows (own weights, bias). Every input block is the restriction of its array to the rows the output
  block covers (the three small arrays are staged whole at every point), so what point t writes back is block t of
  ONE function of the argument arrays, `Cert.PerGene.result`; the 16 blocks tile the [1024, 20000] result, so the array
  ends holding that function.
-/
import proofs.«128370_j5480378270212_1_alg».proof.Proof.Gen.KernelIdeal.Value
import proofs.«128370_j5480378270212_1_alg».proof.Proof.HostPrefix
import proofs.«128370_j5480378270212_1_alg».proof.Proof.Spec

set_option maxRecDepth 16384

noncomputable section

namespace Cert.KernelIdeal.RowBlocks

open Cert.KernelIdeal Cert.KernelIdeal.Gen Idealize.ShloMosaic Idealize.ShloMosaic.TcCoe Idealize.SL.Sem
open Idealize.ShloMosaic.ValueIdx Cert.PerGene
open Idealize.ShloMosaic.Pipeline (Dat)

variable (m : (ℓ : Loc nD τ sig) → Buf (Elt Ideal) ℓ) (ρ : Dev nD → PrngReg)

/-- The three argument arrays on core `c`, at their literal types. -/
abbrev argX (c : Dev nD) : FVec Ideal S1024x20128 .f32 := m ((c : Thread nD τ).loc main_arg0)
abbrev argW (c : Dev nD) : FVec Ideal S20000x129 .f32 := m ((c : Thread nD τ).loc main_arg1)
abbrev argB (c : Dev nD) : FVec Ideal S20000 .f32 := m ((c : Thread nD τ).loc main_arg2)

theorem origin : (![0, 0] : Fin 2 → Nat) = fun _ => 0 := funext fun a => by fin_cases a <;> rfl

/-- The body's stored value at entry (p, q) of its block, when the block of x holds row r of x in its row p, and the
    three small blocks hold W's shared weights transposed, W's own weights and b: entry (r, q) of the result. -/
theorem point_eq (x : FVec Ideal S1024x20128 .f32) (W : FVec Ideal S20000x129 .f32) (b : FVec Ideal S20000 .f32)
    (x0 : Vec Ideal S64x20128 .f32) (x1 : Vec Ideal S128x20000 .bf16) (x2 x3 : Vec Ideal S1x20000 .f32)
    (p : Fin 64) (q : Fin 20000) (r : Fin 1024)
    (h0 : ∀ cc : Fin 20128, x0 (ix2 p cc) = x (ix2 r cc))
    (h1 : ∀ k : Fin 128, x1 (ix2 k q) = W (ix2 q (sharedWeight k)))
    (h2 : x2 (ix2 (0 : Fin 1) q) = W (ix2 q (0 : Fin 129)))
    (h3 : x3 (ix2 (0 : Fin 1) q) = b (ix1 q)) :
    k0_pay1 (F := Ideal) x0 x1 x2 x3 (ix2 p q) = entry x W b r q := by
  refine (rows_apply x0 x1 x2 x3 slices_S64x20128_o0_0_S64x20000 slices_S64x20128_o0_20000_S64x128 bitsLt_bf16_f32
    shapeCasts_S128x20000_S128x20000 shapeCasts_S1x20000_S1x20000 broadcasts_S1x20000_S64x20000
    dot_S64x128_S128x20000_S64x20000_1_0_0_1_n_n rfl p q).trans ?_
  unfold entry
  rw [h0, h2, h3]
  refine congrArg (· + b (ix1 q)) (congrArg (x (ix2 r (ownCol q)) * W (ix2 q (0 : Fin 129)) + ·) ?_)
  exact Finset.sum_congr rfl fun k _ => by rw [h0, h1]

/-- The printed index maps over the 16 points: the block of x moves with the output's block along the rows, the three
    small windows stay at block (0, 0), and the output's block index is (t, 0). -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of `result` of the argument arrays. -/
theorem flushed_eq (c : Dev nD) (t : Fin cfg0.N) :
    (dats m 0 c).flushed 4 t = ((cfg0.win 4).blk t).view.read (Elt Ideal) (result (argX m c) (argW m c) (argB m c)) := by
  rw [Cert.KernelIdeal.Value.flushed4]
  unfold out0_4
  rw [View.canon_unit_zero origin]
  simp only [View.ld_unit_zero (S := S64x20128) origin, View.ld_unit_zero (S := S128x20000) origin,
    View.ld_unit_zero (S := S1x20000) origin]
  obtain ⟨e00, e01, e10, e11, e20, e21, e30, e31, e40, e41⟩ := idx_facts t
  funext j
  show k0_pay1 (F := Ideal) (iblk m c 0 t) (iblk m c 1 t) (iblk m c 2 t) (iblk m c 3 t) j
    = entry (argX m c) (argW m c) (argB m c) ((((cfg0.win 4).blk t).view.emb j) 0) ((((cfg0.win 4).blk t).view.emb j) 1)
  have hj : j = ix2 (n0 := 64) (n1 := 20000) (j 0) (j 1) := eq_ix2 (n0 := 64) (n1 := 20000) j
  have hq : (((cfg0.win 4).blk t).view.emb j) 1 = (j 1 : Fin 20000) :=
    Fin.ext (by show win0_4.index t (1 : Fin 2) * 20000 + 1 * (j 1).val = (j 1).val; omega)
  have hX : (V m c main_arg0 : FVec Ideal S1024x20128 .f32) = argX m c := V_main_arg0 m c
  refine ((congrArg (k0_pay1 (F := Ideal) (iblk m c 0 t) (iblk m c 1 t) (iblk m c 2 t) (iblk m c 3 t)) hj).trans
    (point_eq (argX m c) (argW m c) (argB m c) (iblk m c 0 t) (iblk m c 1 t) (iblk m c 2 t) (iblk m c 3 t) (j 0) (j 1)
      ((((cfg0.win 4).blk t).view.emb j) 0) ?_ ?_ ?_ ?_)).trans
    (congrArg (entry (argX m c) (argW m c) (argB m c) ((((cfg0.win 4).blk t).view.emb j) 0)) hq.symm)
  · intro cc
    show (V m c main_arg0 : FVec Ideal S1024x20128 .f32) (((cfg0.win 0).blk t).view.emb (ix2 (n0 := 64) (n1 := 20128) (j 0) cc)) = _
    refine (congrFun hX _).trans (congrArg (argX m c) ?_)
    funext a; apply Fin.ext
    match a with
    | ⟨0, _⟩ => show win0_0.index t (0 : Fin 2) * 64 + 1 * (j 0).val = win0_4.index t (0 : Fin 2) * 64 + 1 * (j 0).val; omega
    | ⟨1, _⟩ => show win0_0.index t (1 : Fin 2) * 20128 + 1 * cc.val = cc.val; omega
  · intro k
    show (V m c main_v4 : FVec Ideal S128x20000 .bf16) (((cfg0.win 1).blk t).view.emb (ix2 (n0 := 128) (n1 := 20000) k (j 1))) = _
    refine (congrArg (V m c main_v4 : FVec Ideal S128x20000 .bf16) ?_).trans (Cert.KernelIdeal.Prefix.V_shared_apply m c k (j 1))
    funext a; apply Fin.ext
    match a with
    | ⟨0, _⟩ => show win0_1.index t (0 : Fin 2) * 128 + 1 * k.val = k.val; omega
    | ⟨1, _⟩ => show win0_1.index t (1 : Fin 2) * 20000 + 1 * (j 1).val = (j 1).val; omega
  · show (V m c main_v5 : FVec Ideal S1x20000 .f32) (((cfg0.win 2).blk t).view.emb (ix2 (n0 := 1) (n1 := 20000) (0 : Fin 1) (j 1))) = _
    refine (congrArg (V m c main_v5 : FVec Ideal S1x20000 .f32) ?_).trans (Cert.KernelIdeal.Prefix.V_own_apply m c (j 1))
    funext a; apply Fin.ext
    match a with
    | ⟨0, _⟩ => show win0_2.index t (0 : Fin 2) * 1 + 1 * 0 = 0; omega
    | ⟨1, _⟩ => show win0_2.index t (1 : Fin 2) * 20000 + 1 * (j 1).val = (j 1).val; omega
  · show (V m c main_v6 : FVec Ideal S1x20000 .f32) (((cfg0.win 3).blk t).view.emb (ix2 (n0 := 1) (n1 := 20000) (0 : Fin 1) (j 1))) = _
    refine (congrArg (V m c main_v6 : FVec Ideal S1x20000 .f32) ?_).trans (Cert.KernelIdeal.Prefix.V_bias_apply m c (j 1))
    funext a; apply Fin.ext
    match a with
    | ⟨0, _⟩ => show win0_3.index t (0 : Fin 2) * 1 + 1 * 0 = 0; omega
    | ⟨1, _⟩ => show win0_3.index t (1 : Fin 2) * 20000 + 1 * (j 1).val = (j 1).val; omega

/-- An index of the result array is in point `t`'s block iff each coordinate is in the block's range on its axis. -/
theorem mem_blk (t : Fin cfg0.N) (i : S1024x20000.Idx) :
    i ∈ ((cfg0.win 4).blk t).view.set ↔ ∀ a : Fin 2, win0_4.index t a * S64x20000.size a ≤ (i a).val ∧ (i a).val < win0_4.index t a * S64x20000.size a + S64x20000.size a := by
  show i ∈ ((View.whole main_v7).slice (win0_4.rect t)).set ↔ _
  rw [View.set_slice_whole, Rect.mem_set_unit]
  exact Iff.rfl

/-- Row `r` of the result lies in the block of point `r / 64`: the 16 blocks cover the array. -/
theorem cover (i : S1024x20000.Idx) : ∃ t : Fin cfg0.N, (cfg0.win 4).flush t = true ∧ i ∈ ((cfg0.win 4).blk t).view.set := by
  have hi0 : (i 0).val < 1024 := (i 0).isLt
  have hi1 : (i 1).val < 20000 := (i 1).isLt
  have hN : grid0.N = 16 := N_0
  have ht : (i 0).val / 64 < grid0.N := by omega
  obtain ⟨_, _, _, _, _, _, _, _, e40, e41⟩ := idx_facts ⟨(i 0).val / 64, ht⟩
  have e40' : win0_4.index ⟨(i 0).val / 64, ht⟩ (0 : Fin 2) = (i 0).val / 64 := e40
  refine ⟨⟨(i 0).val / 64, ht⟩, flush0_4 _, ?_⟩
  rw [mem_blk]
  intro a
  match a with
  | ⟨0, _⟩ =>
    show win0_4.index ⟨(i 0).val / 64, ht⟩ (0 : Fin 2) * 64 ≤ (i 0).val ∧ (i 0).val < win0_4.index ⟨(i 0).val / 64, ht⟩ (0 : Fin 2) * 64 + 64
    omega
  | ⟨1, _⟩ =>
    show win0_4.index ⟨(i 0).val / 64, ht⟩ (1 : Fin 2) * 20000 ≤ (i 1).val ∧ (i 1).val < win0_4.index ⟨(i 0).val / 64, ht⟩ (1 : Fin 2) * 20000 + 20000
    omega

/-- The result array after the run is `result` of the argument arrays. -/
theorem final (c : Dev nD) : (dats m 0 c).arrAt 4 cfg0.N = result (argX m c) (argW m c) (argB m c) :=
  (dats m 0 c).arrAt_eq_of_cover 4 (result (argX m c) (argW m c) (argB m c)) (fun t _ => flushed_eq m c t) cover

/-- The kernel's run with its result named: every execution ends with the result array at `result` of the arguments
    and the arguments unchanged. -/
theorem run : θ_run defs (onTc (τ := τ) (main (F := Ideal))) ⟨m, fun _ => 0, ρ⟩ fun r => ∀ c : Dev nD,
      r.2.mem ((c : Thread nD τ).loc main_v7) = result (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.RowBlocks

end
-- ==== Proof.RefValue.lean ====
/-
  The reference, read entry by entry. Its thirteen host operations slice x into its first 20000 and last 128 columns
  and W into its column 0 and its last 128 columns, lay column 0 of W and b along rows repeated over the 1024 rows,
  contract the last 128 columns of x with the last 128 columns of W (both along their second axis), and add. At entry
  (r, j) that is x[r, j] · W[j, 0] + Σ_k x[r, 20000 + k] · W[j, 1 + k] + b[j]: the function `Cert.PerGene.result`.
-/
import proofs.«128370_j5480378270212_1_alg».proof.Proof.Gen.ReferenceIdeal.Read
import proofs.«128370_j5480378270212_1_alg».proof.Proof.Spec

noncomputable section

namespace Cert.ReferenceIdeal.Entrywise

open Cert.ReferenceIdeal Cert.ReferenceIdeal.Gen Cert.ReferenceIdeal.Read Idealize.ShloMosaic
open Idealize.ShloMosaic.ValueIdx Cert.PerGene

/-- The own-input slice reads x at (r, j). -/
theorem own_idx (i : S1024x20000.Idx) : idx_main_v0 i = ix2 (i 0) (ownCol (i 1)) :=
  funext fun a => Fin.ext (by match a with | ⟨0, _⟩ => rfl | ⟨1, _⟩ => rfl)

/-- The own weight, through the two broadcasts, the reshape and the slice, reads W at (j, 0). -/
theorem ownWeight_idx (i : S1024x20000.Idx) :
    idx_main_v2 (idx_main_v3 (idx_main_v5 (idx_main_v6 i))) = ix2 (i 1) (0 : Fin 129) :=
  funext fun a => Fin.ext (by match a with | ⟨0, _⟩ => exact Nat.div_one _ | ⟨1, _⟩ => rfl)

/-- The left factor of the contraction reads x at (r, 20000 + k). -/
theorem shared_idx (i : S1024x20000.Idx) (k : Fin 128) : idx_main_v1 (lidx_main_v8 i k) = ix2 (i 0) (sharedCol k) :=
  funext fun a => Fin.ext (by match a with | ⟨0, _⟩ => rfl | ⟨1, _⟩ => rfl)

/-- The right factor reads W at (j, 1 + k). -/
theorem sharedWeight_idx (i : S1024x20000.Idx) (k : Fin 128) : idx_main_v4 (ridx_main_v8 i k) = ix2 (i 1) (sharedWeight k) :=
  funext fun a => Fin.ext (by match a with | ⟨0, _⟩ => rfl | ⟨1, _⟩ => rfl)

/-- The bias, through its two broadcasts, reads b at j. -/
theorem bias_idx (i : S1024x20000.Idx) : idx_main_v10 (idx_main_v11 i) = ix1 (i 1) :=
  funext fun a => Fin.ext (by match a with | ⟨0, _⟩ => rfl)

/-- The reference's result is `result` of its arguments. -/
theorem ref_eq (x : FVec Ideal S1024x20128 .f32) (W : FVec Ideal S20000x129 .f32) (b : FVec Ideal S20000 .f32) :
    val_main_v12 (F := Ideal) x W b = result x W b := by
  funext i
  rw [val_main_v12_apply, val_main_v9_apply, val_main_v7_apply, val_main_v8_apply, val_main_v0_apply,
    val_main_v6_apply, val_main_v5_apply, val_main_v3_apply, val_main_v2_apply, val_main_v11_apply, val_main_v10_apply]
  simp only [val_main_v1_apply, val_main_v4_apply, own_idx, ownWeight_idx, shared_idx, sharedWeight_idx, bias_idx,
    Ideal.addf_def, Ideal.mulf_def]
  rfl

end Cert.ReferenceIdeal.Entrywise

end
-- ==== Proof.lean ====
/-
  The kernel computes, for x : [1024, 20128], W : [20000, 129], b : [20000],

      y[r, j] = x[r, j] · W[j, 0] + Σ_{k < 128} x[r, 20000 + k] · W[j, 1 + k] + b[j]

  sixteen blocks of 64 rows at a time: the host transposes the last 128 columns of W (narrowing them to bf16) and lays
  column 0 of W and b along rows; each grid point multiplies its 64 rows of the first 20000 columns of x by the own-weight
  row, adds the matrix product of its 64 rows of the last 128 columns of x (narrowed to bf16) with the transposed shared
  weights, and adds the bias row. The reference computes the same entries with slices, broadcasts and one contraction
  over the whole arrays. Over the extended reals a change of float format is the identity and the product into the zero
  accumulator is the plain sum over k, so the two results are the same function of the arguments, entry by entry
  (`Cert.PerGene.result`); no law beyond rewriting each side into that sum is needed, and the precondition is not used.

  * The kernel's result array: Proof/KernelValue.lean (what each grid point writes back, the cover by the 16 row blocks)
    over Proof/HostPrefix.lean (the three host-prepared arrays entry by entry) and Proof/Spec.lean (the function, and the
    block computation read at an entry).
  * The reference's result array: Proof/RefValue.lean.
  * The three frames are the generated runs; the idealization rewrote no operation, so `preserves` is trivial.
-/
import proofs.«128370_j5480378270212_1_alg».proof.Defs
import proofs.«128370_j5480378270212_1_alg».proof.Proof.Gen.Kernel
import proofs.«128370_j5480378270212_1_alg».proof.Proof.Gen.Kernel.Frame
import proofs.«128370_j5480378270212_1_alg».proof.Proof.Gen.KernelIdeal
import proofs.«128370_j5480378270212_1_alg».proof.Proof.Gen.KernelIdeal.Frame
import proofs.«128370_j5480378270212_1_alg».proof.Proof.Gen.KernelIdeal.Value
import proofs.«128370_j5480378270212_1_alg».proof.Proof.Gen.ReferenceIdeal
import proofs.«128370_j5480378270212_1_alg».proof.Proof.Gen.ReferenceIdeal.Run
import proofs.«128370_j5480378270212_1_alg».proof.Proof.Gen.ReferenceIdeal.Read
import proofs.«128370_j5480378270212_1_alg».proof.Proof.Gen.Pre_finite_inputs
import proofs.«128370_j5480378270212_1_alg».proof.Proof.KernelValue
import proofs.«128370_j5480378270212_1_alg».proof.Proof.RefValue
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `Cert.PerGene.result` of arguments that agree. -/
theorem algebraic : Cert.algebraic_KernelIdeal_ReferenceIdeal := by
  intro m ρ m' ρ' _ hagree
  refine ⟨fun c => Cert.PerGene.result (Cert.KernelIdeal.RowBlocks.argX m c) (Cert.KernelIdeal.RowBlocks.argW m c)
    (Cert.KernelIdeal.RowBlocks.argB m c), Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Entrywise.ref_eq, (hagree c).1, (hagree c).2.1, (hagree c).2.2]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, trivial, Claims.algebraic⟩

end Cert.Proof

end
